-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x768 : Shape := ⟨2, ![768, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S4x8192x768 .f32) (main_arg1 : FVec F S768x768 .f32) (main_arg2 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S4x8192x768 : Shape := ⟨3, ![4, 8192, 768]⟩
abbrev S768x768 : Shape := ⟨2, ![768, 768]⟩
abbrev S768 : Shape := ⟨1, ![768]⟩
abbrev S32768x768 : Shape := ⟨2, ![32768, 768]⟩
abbrev S1x768 : Shape := ⟨2, ![1, 768]⟩
abbrev S512x768 : Shape := ⟨2, ![512, 768]⟩

abbrev nBuf : Space → Nat
  | .hbm => 7
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S32768x768, .f32⟩
  | .hbm, ⟨4, _⟩ => ⟨S1x768, .f32⟩
  | .hbm, ⟨5, _⟩ => ⟨S32768x768, .f32⟩
  | .hbm, ⟨6, _⟩ => ⟨S4x8192x768, .f32⟩
  | .local _ .vmem, ⟨0, _⟩ => ⟨S512x768, .f32⟩
  | .local _ .vmem, ⟨1, _⟩ => ⟨S512x768, .f32⟩
  | .local _ .vmem, ⟨2, _⟩ => ⟨S768x768, .f32⟩
  | .local _ .vmem, ⟨3, _⟩ => ⟨S1x768, .f32⟩
  | .local _ .vmem, ⟨4, _⟩ => ⟨S512x768, .f32⟩
  | .local _ .vmem, ⟨5, _⟩ => ⟨S512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x768_S32768x768 : S4x8192x768.ShapeCasts S32768x768
  shapeCasts_S768_S1x768 : S768.ShapeCasts S1x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S32768x768_S4x8192x768 : S32768x768.ShapeCasts S4x8192x768
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S32768x768.size a
  hwx0_3 : ∀ i : grid0.Coords, EltTy.bits .f32 = 32 ∨ (Rect.block (s := S32768x768) S512x768.size (cc0_transform_3 i) (hinb0_3 i)).WholeWords (EltTy.packing .f32)

variable [Facts₀]

def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x768 : Shape := ⟨2, ![768, 768]⟩
abbrev S768 : Shape := ⟨1, ![768]⟩
abbrev S1x1x768 : Shape := ⟨3, ![1, 1, 768]⟩

abbrev nBuf : Space → Nat
  | .hbm => 7
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S4x8192x768, .f32⟩
  | .hbm, ⟨4, _⟩ => ⟨S1x1x768, .f32⟩
  | .hbm, ⟨5, _⟩ => ⟨S4x8192x768, .f32⟩
  | .hbm, ⟨6, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  dot_S4x8192x768_S768x768_S4x8192x768_2_1_01_0_n_n_wf : DotDims.WF S4x8192x768 S768x768 S4x8192x768 [2] [1] [0, 1] [0] [] []

variable [Facts₀]

def dot_S4x8192x768_S768x768_S4x8192x768_2_1_01_0_n_n : DotDims S4x8192x768 S768x768 S4x8192x768 where
  lhsContracting := [2]
  rhsContracting := [1]
  lhsNonContracting := [0, 1]
  rhsNonContracting := [0]
  lhsBatch := []
  rhsBatch := []
  wf := dot_S4x8192x768_S768x768_S4x8192x768_2_1_01_0_n_n_wf

class Facts : Prop extends Facts₀ where

variable [Facts]
-- ==== Proof.Payload.lean ====
/-
  One entry of what the dense layer's body stores: for a row block `x` of [512, 768], the weight `w` of [768, 768]
  and the bias row `b` of [1, 768], entry (p, q) of the stored block is
      (∑ k, x (p, k) · w (q, k)) + b (0, q).
  The matrix unit contracts the SECOND axis of both operands (the weight is used transposed), accumulating into a
  zero splat, which at the extended reals adds nothing; the bias row is broadcast down the 512 rows.
-/
import proofs.«110783_g83073257439578_cont_9to1c4b_858_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Where the contraction reads its operands -/

/-- The left operand's row is the output's row. -/
theorem lhs_axis0 (i : S512x768.Idx) (q : dot_S512x768_S768x768_S512x768_1_1_0_0_n_n.contr.Idx) :
    (dot_S512x768_S768x768_S512x768_1_1_0_0_n_n.lhsIdx i q 0).val = (i 0).val := by
  unfold DotDims.lhsIdx
  rw [dif_neg (show ¬(0 : Fin S512x768.rank) ∈ dot_S512x768_S768x768_S512x768_1_1_0_0_n_n.lhsBatch by decide), dif_pos (show (0 : Fin S512x768.rank) ∈ dot_S512x768_S768x768_S512x768_1_1_0_0_n_n.lhsNonContracting by decide)]
  rfl
/-- The left operand's column is the contracted coordinate. -/
theorem lhs_axis1 (i : S512x768.Idx) (q : dot_S512x768_S768x768_S512x768_1_1_0_0_n_n.contr.Idx) :
    (dot_S512x768_S768x768_S512x768_1_1_0_0_n_n.lhsIdx i q 1).val = (q ⟨0, by decide⟩).val :=
  dot_S512x768_S768x768_S512x768_1_1_0_0_n_n.lhsIdx_val_of_single rfl i q
/-- The right operand's row is the output's COLUMN: the weight enters transposed. -/
theorem rhs_axis0 (i : S512x768.Idx) (q : dot_S512x768_S768x768_S512x768_1_1_0_0_n_n.contr.Idx) :
    (dot_S512x768_S768x768_S512x768_1_1_0_0_n_n.rhsIdx i q 0).val = (i 1).val := by
  unfold DotDims.rhsIdx
  rw [dif_neg (show ¬(0 : Fin S768x768.rank) ∈ dot_S512x768_S768x768_S512x768_1_1_0_0_n_n.rhsBatch by decide), dif_pos (show (0 : Fin S768x768.rank) ∈ dot_S512x768_S768x768_S512x768_1_1_0_0_n_n.rhsNonContracting by decide)]
  rfl
/-- The right operand's column is the contracted coordinate. -/
theorem rhs_axis1 (i : S512x768.Idx) (q : dot_S512x768_S768x768_S512x768_1_1_0_0_n_n.contr.Idx) :
    (dot_S512x768_S768x768_S512x768_1_1_0_0_n_n.rhsIdx i q 1).val = (q ⟨0, by decide⟩).val :=
  dot_S512x768_S768x768_S512x768_1_1_0_0_n_n.rhsIdx_val_of_single rfl i q

/-! ## The matrix unit's product at an entry -/

/-- Into the zero accumulator, entry (p, q) of the product is the sum over the 768 contracted positions of
    `x (p, k) · w (q, k)`. -/
theorem matmul_entry (x : FVec Ideal S512x768 .f32) (w : FVec Ideal S768x768 .f32) (p : Fin 512) (q : Fin 768) :
    matmul dot_S512x768_S768x768_S512x768_1_1_0_0_n_n none x w (constant S512x768 .f32 0x00000000#32) (ix2 p q)
      = ∑ k : Fin 768, x (ix2 p k) * w (ix2 q k) := by
  simp only [matmul]
  rw [Ideal.matmul_constant_zero_apply, ← Equiv.sum_comp (contrEquiv1 dot_S512x768_S768x768_S512x768_1_1_0_0_n_n 768 rfl rfl).symm]
  refine Finset.sum_congr rfl fun k _ => ?_
  have hk := contrEquiv1_symm_val dot_S512x768_S768x768_S512x768_1_1_0_0_n_n 768 rfl rfl k
  have el : dot_S512x768_S768x768_S512x768_1_1_0_0_n_n.lhsIdx (ix2 p q) ((contrEquiv1 dot_S512x768_S768x768_S512x768_1_1_0_0_n_n 768 rfl rfl).symm k) = ix2 p k := funext fun a => Fin.ext (by
    match a with
    | ⟨0, _⟩ => exact lhs_axis0 _ _
    | ⟨1, _⟩ => exact (lhs_axis1 _ _).trans hk)
  have er : dot_S512x768_S768x768_S512x768_1_1_0_0_n_n.rhsIdx (ix2 p q) ((contrEquiv1 dot_S512x768_S768x768_S512x768_1_1_0_0_n_n 768 rfl rfl).symm k) = ix2 q k := funext fun a => Fin.ext (by
    match a with
    | ⟨0, _⟩ => exact rhs_axis0 _ _
    | ⟨1, _⟩ => exact (rhs_axis1 _ _).trans hk)
  rw [el, er]

/-! ## The bias row broadcast down the rows -/

/-- The [1, 768] row broadcast to [512, 768] reads, at (p, q), the row's entry (0, q). -/
theorem bias_entry (b : FVec Ideal S1x768 .f32) (p : Fin 512) (q : Fin 768) :
    broadcastTo S512x768 b broadcasts_S1x768_S512x768 (ix2 p q) = b (ix2 0 q) :=
  broadcastTo_apply b broadcasts_S1x768_S512x768 (ix2 p q) (ix2 0 q) (fun a => match a with
    | ⟨0, _⟩ => by show (0 : Nat) = if (1 : Nat) = 1 then 0 else _; rw [if_pos rfl]
    | ⟨1, _⟩ => by show q.val = if (768 : Nat) = 1 then 0 else q.val; rw [if_neg (by decide)])

/-! ## The stored value -/

/-- Entry (p, q) of what the body stores. -/
theorem stored_entry (x : FVec Ideal S512x768 .f32) (w : FVec Ideal S768x768 .f32) (b : FVec Ideal S1x768 .f32)
    (p : Fin 512) (q : Fin 768) :
    k0_pay1 (F := Ideal) x w b (ix2 p q) = (∑ k : Fin 768, x (ix2 p k) * w (ix2 q k)) + b (ix2 0 q) := by
  unfold k0_pay1
  show addf (matmul dot_S512x768_S768x768_S512x768_1_1_0_0_n_n none (shapeCast S512x768 x shapeCasts_S512x768_S512x768) w (constant S512x768 .f32 0x00000000#32))
      (broadcastTo S512x768 (shapeCast S1x768 b shapeCasts_S1x768_S1x768) broadcasts_S1x768_S512x768) (ix2 p q) = _
  rw [shapeCast_self, shapeCast_self, addf_apply, matmul_entry, bias_entry]

end Cert.KernelIdeal.Body

end
-- ==== Proof.Spec.lean ====
/-
  The dense layer as one function of its arguments, in two arrangements, and the passage between them.
  Over flattened rows: for `X` of [32768, 768], the weight `W` of [768, 768] and the bias row `B` of [1, 768],
      rows X W B (r, e) = (∑ k, X (r, k) · W (e, k)) + B (0, e).
  Over [batch, token, feature]: for `src` of [4, 8192, 768] and the bias `b` of [768],
      dense src W b (n, s, e) = (∑ k, src (n, s, k) · W (e, k)) + b e.
  Row `r = 8192 · n + s` of the flattened source is token `s` of batch `n`, so flattening the source, applying `rows`
  and restoring the three axes is `dense`: only the positions of the entries move, no arithmetic is rearranged.
-/
import Idealize.ShloMosaic.PureOps.Ideal
import Idealize.ShloMosaic.Lib.ValueIdx
import Idealize.ShloMosaic.Lib.Pipeline.Value

noncomputable section

open scoped BigOperators

namespace Cert.Linear

open Idealize.ShloMosaic Idealize.ShloMosaic.ValueIdx

abbrev Src : Shape := ⟨3, ![4, 8192, 768]⟩
abbrev Rows : Shape := ⟨2, ![32768, 768]⟩
abbrev Wt : Shape := ⟨2, ![768, 768]⟩
abbrev BiasRow : Shape := ⟨2, ![1, 768]⟩
abbrev Bias : Shape := ⟨1, ![768]⟩

/-- The layer over flattened rows. -/
def rows (X : FVec Ideal Rows .f32) (W : FVec Ideal Wt .f32) (B : FVec Ideal BiasRow .f32) : FVec Ideal Rows .f32 :=
  fun i => (∑ k : Fin 768, X (ix2 (i 0) k) * W (ix2 (i 1) k)) + B (ix2 0 (i 1))

/-- The layer over [batch, token, feature]. -/
def dense (src : FVec Ideal Src .f32) (W : FVec Ideal Wt .f32) (b : FVec Ideal Bias .f32) : FVec Ideal Src .f32 :=
  fun i => (∑ k : Fin 768, src (ix3 (i 0) (i 1) k) * W (ix2 (i 2) k)) + b (ix1 (i 2))

/-- Flatten the source's first two axes, add a unit axis to the bias, apply the layer over rows, restore the axes:
    the layer over [batch, token, feature]. -/
theorem unflatten_rows (src : FVec Ideal Src .f32) (W : FVec Ideal Wt .f32) (b : FVec Ideal Bias .f32)
    (hs : Src.ShapeCasts Rows) (hb : Bias.ShapeCasts BiasRow) (ho : Rows.ShapeCasts Src) :
    shapeCast Src (rows (shapeCast Rows src hs) W (shapeCast BiasRow b hb)) ho = dense src W b := by
  funext i
  have h0 : (i 0).val < 4 := (i 0).isLt
  have h1 : (i 1).val < 8192 := (i 1).isLt
  have h2 : (i 2).val < 768 := (i 2).isLt
  -- entry (n, s, e) of the restored array is entry (8192 n + s, e) of the flattened one
  rw [shapeCast_apply _ ho i (ix2 (⟨(i 0).val * 8192 + (i 1).val, by omega⟩ : Fin 32768) (i 2)) (by
    rw [Shape.rowMajor_val_two, Shape.rowMajor_val_three]; rfl)]
  unfold rows dense
  refine congr (congrArg HAdd.hAdd (Finset.sum_congr rfl fun k _ => congrArg (· * _) ?_)) ?_
  · -- entry (8192 n + s, k) of the flattened source is entry (n, s, k) of the source
    exact shapeCast_apply src hs _ (ix3 (i 0) (i 1) k) (by
      rw [Shape.rowMajor_val_two, Shape.rowMajor_val_three]; rfl)
  · -- entry (0, e) of the bias row is entry e of the bias
    exact shapeCast_apply b hb _ (ix1 (i 2)) (by
      rw [Shape.rowMajor_val_two, Shape.rowMajor_val_one]; show (i 2).val = 0 * 768 + (i 2).val; omega)

end Cert.Linear

end
-- ==== Proof.Blocks.lean ====
/-
  The kernel's result array. Grid point `t` (of 64) holds rows `512 t … 512 t + 511` of the flattened source, the whole
  weight and the whole bias row, and writes back the same rows of the output; so what it writes is block `t` of the
  layer over flattened rows, the 64 blocks tile the [32768, 768] output, and the host's last reshape restores
  [4, 8192, 768].
-/
import proofs.«110783_g83073257439578_cont_9to1c4b_858_2_alg».proof.Proof.Gen.KernelIdeal.Frame
import proofs.«110783_g83073257439578_cont_9to1c4b_858_2_alg».proof.Proof.Payload
import proofs.«110783_g83073257439578_cont_9to1c4b_858_2_alg».proof.Proof.Spec
import Idealize.ShloMosaic.Lib.Pipeline.Value
import Idealize.ShloMosaic.Lib.StableHlo.Run
import Idealize.ShloMosaic.Lib.Tactic

noncomputable section

open scoped BigOperators

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the region finds in the arrays the host wrote before it -/

/-- The first window's array is the source with its first two axes flattened. -/
theorem V_rows (c : Dev nD) :
    (V m c main_v0 : S32768x768.Idx → EReal) = shapeCast S32768x768 (m ((c : Thread nD τ).loc main_arg0)) shapeCasts_S4x8192x768_S32768x768 := by
  show StableHlo.after hostOps0 (fun b => m (c, b)) (Proc.devRef .tc main_v0) = _
  after_results
  rfl

/-- The third window's array is the bias as a one-row matrix. -/
theorem V_biasRow (c : Dev nD) :
    (V m c main_v1 : S1x768.Idx → EReal) = shapeCast S1x768 (m ((c : Thread nD τ).loc main_arg2)) shapeCasts_S768_S1x768 := by
  show StableHlo.after hostOps0 (fun b => m (c, b)) (Proc.devRef .tc main_v1) = _
  after_results
  rfl

/-! ## One stored entry against the layer over rows -/

/-- If the row block holds the rows of `X` that output row `i 0` needs, the weight block holds `W` and the bias block
    holds `B`, the stored entry is the layer's entry. -/
theorem stored_eq_rows (x : FVec Ideal S512x768 .f32) (w : FVec Ideal S768x768 .f32) (b : FVec Ideal S1x768 .f32)
    (X : FVec Ideal S32768x768 .f32) (W : FVec Ideal S768x768 .f32) (B : FVec Ideal S1x768 .f32)
    (j : S512x768.Idx) (i : S32768x768.Idx)
    (hx : ∀ k : Fin 768, x (ix2 (j 0) k) = X (ix2 (i 0) k))
    (hw : ∀ k : Fin 768, w (ix2 (j 1) k) = W (ix2 (i 1) k))
    (hb : b (ix2 0 (j 1)) = B (ix2 0 (i 1))) :
    k0_pay1 (F := Ideal) x w b j = Cert.Linear.rows X W B i := by
  refine (congrArg (k0_pay1 (F := Ideal) x w b) (eq_ix2 j)).trans ?_
  refine (stored_entry x w b (j 0) (j 1)).trans ?_
  unfold Cert.Linear.rows
  exact congr (congrArg HAdd.hAdd (Finset.sum_congr rfl fun k _ => congr (congrArg HMul.hMul (hx k)) (hw k))) hb

/-! ## The blocks -/

/-- The printed index maps over the grid: the row block and the output block move with the point, the weight and the
    bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer over rows, of the arrays as the region finds them. -/
theorem flushed_eq (c : Dev nD) (t : Fin cfg0.N) :
    (dats m 0 c).flushed 3 t = ((cfg0.win 3).blk t).view.read (Elt Ideal)
      (Cert.Linear.rows (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S512x768) hz, View.ld_unit_zero (S := S768x768) hz, View.ld_unit_zero (S := S1x768) hz]
  obtain ⟨e00, e01, e10, e11, e20, e21, e30, e31⟩ := idx_facts t
  refine funext fun (j : S512x768.Idx) => ?_
  refine stored_eq_rows (iblk m c 0 t) (iblk m c 1 t) (iblk m c 2 t) (V m c main_v0) (V m c main_arg1) (V m c main_v1) j
    (((cfg0.win 3).blk t).view.emb j) (fun k => ?_) (fun k => ?_) ?_
  · -- row `j 0` of the row block is row `512 t + j 0` of the flattened source, the output block's row
    show V m c main_v0 (((cfg0.win 0).blk t).view.emb (ix2 (j 0) k)) = V m c main_v0 _
    refine congrArg (V m c main_v0) (funext fun a => Fin.ext ?_)
    match a with
    | ⟨0, _⟩ => show win0_0.index t (0 : Fin 2) * 512 + 1 * (j 0).val = win0_3.index t (0 : Fin 2) * 512 + 1 * (j 0).val; rw [e00, e30]
    | ⟨1, _⟩ => show win0_0.index t (1 : Fin 2) * 768 + 1 * k.val = k.val; rw [e01]; omega
  · -- the weight block is the whole weight
    show V m c main_arg1 (((cfg0.win 1).blk t).view.emb (ix2 (j 1) k)) = V m c main_arg1 _
    refine congrArg (V m c main_arg1) (funext fun a => Fin.ext ?_)
    match a with
    | ⟨0, _⟩ => show win0_1.index t (0 : Fin 2) * 768 + 1 * (j 1).val = win0_3.index t (1 : Fin 2) * 768 + 1 * (j 1).val; rw [e10, e31]
    | ⟨1, _⟩ => show win0_1.index t (1 : Fin 2) * 768 + 1 * k.val = k.val; rw [e11]; omega
  · -- the bias block is the whole bias row
    show V m c main_v1 (((cfg0.win 2).blk t).view.emb (ix2 0 (j 1))) = V m c main_v1 _
    refine congrArg (V m c main_v1) (funext fun a => Fin.ext ?_)
    match a with
    | ⟨0, _⟩ => show win0_2.index t (0 : Fin 2) * 1 + 1 * 0 = 0; rw [e20]
    | ⟨1, _⟩ => show win0_2.index t (1 : Fin 2) * 768 + 1 * (j 1).val = win0_3.index t (1 : Fin 2) * 768 + 1 * (j 1).val; rw [e21, e31]

/-- An index of the output array is in point `t`'s block iff each coordinate is in the block's range on its axis. -/
theorem mem_blk (t : Fin cfg0.N) (i : S32768x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v2).slice (win0_3.rect t)).set ↔ _
  rw [View.set_slice_whole, Rect.mem_set_unit]
  exact Iff.rfl

/-- Row `r` of the output lies in the block of point `r / 512`: the 64 blocks tile the array. -/
theorem cover (i : S32768x768.Idx) :
    ∃ t : Fin cfg0.N, (cfg0.win 3).flush t = true ∧ i ∈ ((cfg0.win 3).blk t).view.set := by
  have hi0 : (i 0).val < 32768 := (i 0).isLt
  have hi1 : (i 1).val < 768 := (i 1).isLt
  have hN : cfg0.N = 64 := N_0
  let t : Fin cfg0.N := ⟨(i 0).val / 512, by rw [hN]; omega⟩
  obtain ⟨-, -, -, -, -, -, e30, e31⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e30]; show (i 0).val / 512 * 512 ≤ (i 0).val ∧ (i 0).val < (i 0).val / 512 * 512 + 512; omega
  | ⟨1, _⟩ => show win0_3.index t (1 : Fin 2) * 768 ≤ (i 1).val ∧ (i 1).val < win0_3.index t (1 : Fin 2) * 768 + 768; rw [e31]; omega

/-- THE OUTPUT ARRAY after the region: the layer over rows of the arrays the region found. -/
theorem final (c : Dev nD) : (dats m 0 c).arrAt 3 cfg0.N = Cert.Linear.rows (V m c main_v0) (V m c main_arg1) (V m c main_v1) :=
  (dats m 0 c).arrAt_eq_of_cover 3 _ (fun t _ => flushed_eq m c t) cover

/-! ## The host's last reshape, and the run -/

/-- The result is the region's output array with its rows split back into batch and token. -/
theorem tail_result (c : Dev nD) :
    Pipeline.afterTail₀ cfgs (dats m) 0 (V0 m) [hostOps1] c main_v3
      = shapeCast S4x8192x768 ((dats m 0 c).arrAt 3 cfg0.N) shapeCasts_S32768x768_S4x8192x768 := by
  unfold Pipeline.afterTail₀
  show StableHlo.after hostOps1 _ (Proc.devRef .tc main_v3) = _
  after_results
  exact congrArg (fun A : S32768x768.Idx → EReal => shapeCast S4x8192x768 A shapeCasts_S32768x768_S4x8192x768)
    (Pipeline.withArrays_arr spec0 launch0.win.arr_inj c (V0 m c) (fun w => (dats m 0 c).arrAt w cfg0.N) 3)

/-- The result as a function of the arguments: the layer over [batch, token, feature]. -/
theorem result_eq (c : Dev nD) :
    Pipeline.afterTail₀ cfgs (dats m) 0 (V0 m) [hostOps1] c main_v3
      = Cert.Linear.dense (m ((c : Thread nD τ).loc main_arg0)) (m ((c : Thread nD τ).loc main_arg1)) (m ((c : Thread nD τ).loc main_arg2)) := by
  rw [tail_result, final, V_rows, V_main_arg1, V_biasRow]
  exact Cert.Linear.unflatten_rows _ _ _ _ _ _

/-- The kernel's run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v3)
        = Cert.Linear.dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Blocks

end
-- ==== Proof.RefValue.lean ====
/-
  The reference at the extended reals: the contraction of the source's feature axis with the weight's second axis,
  plus the bias broadcast over batch and token, read entry by entry — the layer over [batch, token, feature].
-/
import proofs.«110783_g83073257439578_cont_9to1c4b_858_2_alg».proof.Proof.Gen.ReferenceIdeal.Read
import proofs.«110783_g83073257439578_cont_9to1c4b_858_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction reads the source at (batch, token, k) … -/
theorem src_idx (i : S4x8192x768.Idx) (k : Fin 768) : lidx_main_v0 i k = ix3 (i 0) (i 1) k :=
  funext fun a => Fin.ext (by match a with | ⟨0, _⟩ => rfl | ⟨1, _⟩ => rfl | ⟨2, _⟩ => rfl)
/-- … and the weight at (feature, k). -/
theorem wt_idx (i : S4x8192x768.Idx) (k : Fin 768) : ridx_main_v0 i k = ix2 (i 2) k :=
  funext fun a => Fin.ext (by match a with | ⟨0, _⟩ => rfl | ⟨1, _⟩ => rfl)
/-- Through its two broadcasts the bias is read at the feature. -/
theorem bias_idx (i : S4x8192x768.Idx) : idx_main_v1 (idx_main_v2 i) = ix1 (i 2) :=
  funext fun a => Fin.ext (by match a with | ⟨0, _⟩ => rfl)

/-- The reference's result is the layer over [batch, token, feature]. -/
theorem result_eq (src : (⟨S4x8192x768, .f32⟩ : BufTy).Contents (Elt Ideal)) (W : (⟨S768x768, .f32⟩ : BufTy).Contents (Elt Ideal))
    (b : (⟨S768, .f32⟩ : BufTy).Contents (Elt Ideal)) :
    val_main_v3 (F := Ideal) src W b = Cert.Linear.dense src W b := by
  funext i
  rw [val_main_v3_apply, val_main_v0_apply, val_main_v2_apply, val_main_v1_apply]
  unfold Cert.Linear.dense
  simp only [src_idx, wt_idx, bias_idx]
  rfl

end Cert.ReferenceIdeal.RefValue

end
-- ==== Proof.lean ====
/-
  A dense layer, `out (n, s, e) = (∑ k, src (n, s, k) · W (e, k)) + b e` over src : [4, 8192, 768], W : [768, 768], b : [768].
  The kernel flattens batch and token into 32768 rows, walks them in 64 blocks of 512 rows — each block one product on the
  matrix unit with the weight contracted on its second axis, into a zero accumulator, plus the bias row — and splits the rows
  back into batch and token. The reference contracts the source's feature axis with the weight's second axis in one step and
  adds the bias broadcast over batch and token.
  Over the extended reals both are the same sum of 768 products plus one bias entry at every position: the zero accumulator
  adds nothing, tiling the rows moves entries without rearranging any sum, and no law beyond reading each operation at an
  index is used, so the finiteness of the inputs is never opened.
  `Proof/Payload.lean`: one stored entry of a block. `Proof/Spec.lean`: the layer over rows and over [batch, token, feature],
  and the reshape between them. `Proof/Blocks.lean`: each point's block, the tiling, the kernel's run. `Proof/RefValue.lean`:
  the reference's result read at an index.
  The ideal pass rewrote no operation of the kernel, so the idealization's conjunct is trivial.
-/
import proofs.«110783_g83073257439578_cont_9to1c4b_858_2_alg».proof.Defs
import proofs.«110783_g83073257439578_cont_9to1c4b_858_2_alg».proof.Proof.Gen.Kernel
import proofs.«110783_g83073257439578_cont_9to1c4b_858_2_alg».proof.Proof.Gen.Kernel.Skeleton
import proofs.«110783_g83073257439578_cont_9to1c4b_858_2_alg».proof.Proof.Gen.Kernel.Launch
import proofs.«110783_g83073257439578_cont_9to1c4b_858_2_alg».proof.Proof.Gen.Kernel.Points
import proofs.«110783_g83073257439578_cont_9to1c4b_858_2_alg».proof.Proof.Gen.Kernel.Frame
import proofs.«110783_g83073257439578_cont_9to1c4b_858_2_alg».proof.Proof.Gen.KernelIdeal
import proofs.«110783_g83073257439578_cont_9to1c4b_858_2_alg».proof.Proof.Gen.KernelIdeal.Skeleton
import proofs.«110783_g83073257439578_cont_9to1c4b_858_2_alg».proof.Proof.Gen.KernelIdeal.Launch
import proofs.«110783_g83073257439578_cont_9to1c4b_858_2_alg».proof.Proof.Gen.KernelIdeal.Points
import proofs.«110783_g83073257439578_cont_9to1c4b_858_2_alg».proof.Proof.Gen.KernelIdeal.Frame
import proofs.«110783_g83073257439578_cont_9to1c4b_858_2_alg».proof.Proof.Gen.ReferenceIdeal
import proofs.«110783_g83073257439578_cont_9to1c4b_858_2_alg».proof.Proof.Gen.Pre_finite_inputs
import proofs.«110783_g83073257439578_cont_9to1c4b_858_2_alg».proof.Proof.Gen.ReferenceIdeal.Run
import proofs.«110783_g83073257439578_cont_9to1c4b_858_2_alg».proof.Proof.Gen.ReferenceIdeal.Read
import proofs.«110783_g83073257439578_cont_9to1c4b_858_2_alg».proof.Proof.Blocks
import proofs.«110783_g83073257439578_cont_9to1c4b_858_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the dense layer of the arguments. -/
theorem algebraic : Cert.algebraic_KernelIdeal_ReferenceIdeal := by
  intro m ρ m' ρ' _ hagree
  refine ⟨fun c => Cert.Linear.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
